-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x4096 .f32) (main_arg1 : FVec F S64x4096 .f32) (main_arg2 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x4096 : Shape := ⟨2, ![16384, 4096]⟩
abbrev S64x4096 : Shape := ⟨2, ![64, 4096]⟩
abbrev S64 : Shape := ⟨1, ![64]⟩
abbrev S1x64 : Shape := ⟨2, ![1, 64]⟩
abbrev S64x16384 : Shape := ⟨2, ![64, 16384]⟩
abbrev S1024x4096 : Shape := ⟨2, ![1024, 4096]⟩
abbrev S64x1024 : Shape := ⟨2, ![64, 1024]⟩
abbrev S64x1 : Shape := ⟨2, ![64, 1]⟩
abbrev S1024 : Shape := ⟨1, ![1024]⟩
abbrev S1x1024 : Shape := ⟨2, ![1, 1024]⟩
abbrev S16384x64 : Shape := ⟨2, ![16384, 64]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x16384, .f32⟩
  | .hbm, ⟨5, _⟩ => ⟨S16384x64, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  inb_S1024x4096_S1024x4096_0_0 : ∀ a, (![0, 0] : Fin 2 → Nat) a + S1024x4096.size a ≤ S1024x4096.size a
  h_S1024x4096 : 0 < S1024x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S64x16384_S16384x64_1_0 : S64x16384.Transposes [1, 0] S16384x64
  dot_S64x4096_S1024x4096_S64x1024_1_1_0_0_n_n_wf : DotDims.WF S64x4096 S1024x4096 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S64 : Shape := ⟨1, ![64]⟩
abbrev S4096x64 : Shape := ⟨2, ![4096, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x4096_S4096x64_S16384x64_1_0_0_1_n_n_wf : DotDims.WF S16384x4096 S4096x64 S16384x64 [1] [0] [0] [1] [] []

variable [Facts₀]

def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Softmax.lean ====
/-
  The gating coefficients as one function of the three arguments.

  For a token's feature row r (4096 numbers), the router weights W (64 × 4096) and the bias b (64 numbers):
    logit e   = (Σ_k r k · W (e, k)) + b e                      for each of the 64 experts e,
    softmax L = exp (L e − M) / Σ_e' exp (L e' − M)             with M the maximum of L folded from −∞.
  The coefficient array [16384, 64] holds, at (t, e), the softmax of token t's logits at e; the transposed array
  [64, 16384] holds the same number at (e, t). Everything is on the extended reals: the sum, the maximum, the
  exponential and the quotient are the ideal instance's own operations, so both programs' results can be read as
  this function without any law that would need the inputs finite.
-/
import Idealize.ShloMosaic.PureOps.Ideal
import Idealize.ShloMosaic.Lib.ValueIdx

noncomputable section

namespace Gating

open Idealize.ShloMosaic Idealize.ShloMosaic.ValueIdx

/-- −∞, as the word both programs start their maximum from. -/
abbrev negInf : EReal := Ideal.ofBits .f32 0xFF800000#32

/-- One token's 64 logits from its feature row. -/
def logits (r : Fin 4096 → EReal) (W : (⟨2, ![64, 4096]⟩ : Shape).Idx → EReal) (b : Fin 64 → EReal) (e : Fin 64) : EReal :=
  (∑ k : Fin 4096, r k * W (ix2 e k)) + b e

/-- The largest of 64 numbers, folded from −∞. -/
def top (L : Fin 64 → EReal) : EReal := (Finset.univ : Finset (Fin 64)).fold max negInf L

/-- The shifted exponential of entry `e`. -/
def weight (L : Fin 64 → EReal) (e : Fin 64) : EReal := Ideal.exp (L e - top L)

/-- The softmax of 64 numbers at `e`. -/
def softmax (L : Fin 64 → EReal) (e : Fin 64) : EReal := Ideal.div (weight L e) (∑ e' : Fin 64, weight L e')

/-- Token `t`'s coefficient for expert `e`. -/
def coefAt (x : (⟨2, ![16384, 4096]⟩ : Shape).Idx → EReal) (W : (⟨2, ![64, 4096]⟩ : Shape).Idx → EReal)
    (b : (⟨1, ![64]⟩ : Shape).Idx → EReal) (t : Fin 16384) (e : Fin 64) : EReal :=
  softmax (logits (fun k => x (ix2 t k)) W (fun e' => b (ix1 e'))) e

/-- The coefficient array, tokens by experts. -/
def coef (x : (⟨2, ![16384, 4096]⟩ : Shape).Idx → EReal) (W : (⟨2, ![64, 4096]⟩ : Shape).Idx → EReal)
    (b : (⟨1, ![64]⟩ : Shape).Idx → EReal) : (⟨2, ![16384, 64]⟩ : Shape).Idx → EReal :=
  fun i => coefAt x W b (i 0) (i 1)

/-- The same numbers laid out experts by tokens. -/
def coefT (x : (⟨2, ![16384, 4096]⟩ : Shape).Idx → EReal) (W : (⟨2, ![64, 4096]⟩ : Shape).Idx → EReal)
    (b : (⟨1, ![64]⟩ : Shape).Idx → EReal) : (⟨2, ![64, 16384]⟩ : Shape).Idx → EReal :=
  fun i => coefAt x W b (i 1) (i 0)

theorem coef_ix2 (x : (⟨2, ![16384, 4096]⟩ : Shape).Idx → EReal) (W : (⟨2, ![64, 4096]⟩ : Shape).Idx → EReal)
    (b : (⟨1, ![64]⟩ : Shape).Idx → EReal) (t : Fin 16384) (e : Fin 64) : coef x W b (ix2 t e) = coefAt x W b t e := rfl

theorem coefT_ix2 (x : (⟨2, ![16384, 4096]⟩ : Shape).Idx → EReal) (W : (⟨2, ![64, 4096]⟩ : Shape).Idx → EReal)
    (b : (⟨1, ![64]⟩ : Shape).Idx → EReal) (e : Fin 64) (t : Fin 16384) : coefT x W b (ix2 e t) = coefAt x W b t e := rfl

/-- A token's logits depend on the feature array only through that token's row. -/
theorem logits_congr {r r' : Fin 4096 → EReal} (h : ∀ k, r k = r' k) (W : (⟨2, ![64, 4096]⟩ : Shape).Idx → EReal)
    (b : Fin 64 → EReal) : logits r W b = logits r' W b := by
  have : r = r' := funext h
  rw [this]

end Gating

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.RefValue.lean ====
/-
  The reference's result is the coefficient array.

  The reference computes, for every token t and expert e, the logits x·Wᵀ + b, their maximum along the expert axis
  (a maximum folded from −∞, then once more taken against −∞), the exponentials of the shifted logits, their sum
  along the expert axis from 0, and the quotient. Read stage by stage at (t, e):
  • the product x (t, k) · Wᵀ (k, e) is x (t, k) · W (e, k);
  • the maximum against −∞ of a maximum already folded from −∞ is that maximum;
  • the sum from the zero word is the sum.
  So the last stage is `Gating.coef` of the three arguments.
-/
import proofs.«114894_g34153579938012_cont_8to1_b_1539_13_alg».proof.Proof.Gen.ReferenceIdeal.Read
import proofs.«114894_g34153579938012_cont_8to1_b_1539_13_alg».proof.Proof.Softmax
import proofs.«114894_g34153579938012_cont_8to1_b_1539_13_alg».proof.Proof.LibRowOps

noncomputable section

namespace Cert.ReferenceIdeal.RefValue

open Cert.ReferenceIdeal Cert.ReferenceIdeal.Gen Cert.ReferenceIdeal.Read
open Idealize.ShloMosaic Idealize.ShloMosaic.ValueIdx

variable (x : (⟨2, ![16384, 4096]⟩ : Shape).Idx → EReal) (W : (⟨2, ![64, 4096]⟩ : Shape).Idx → EReal)
  (b : (⟨1, ![64]⟩ : Shape).Idx → EReal)

/-- Token `t`'s logits, as the specification names them. -/
abbrev L (t : Fin 16384) : Fin 64 → EReal := Gating.logits (fun k => x (ix2 t k)) W (fun e' => b (ix1 e'))

/-- The sum of the bias with the product: the logit of token `t` for expert `e`. -/
theorem logit_apply (t : Fin 16384) (e : Fin 64) : val_main_v4 (F := Ideal) x W b (ix2 t e) = L x W b t e := by
  rw [val_main_v4_apply, val_main_v1_apply, val_main_v3_apply, val_main_v2_apply]
  have hb : idx_main_v2 (idx_main_v3 (ix2 t e)) = ix1 e := funext fun a => Fin.ext (by match a with | ⟨0, _⟩ => rfl)
  rw [hb]
  show (∑ k : Fin 4096, x (lidx_main_v1 (ix2 t e) k) * val_main_v0 (F := Ideal) W (ridx_main_v1 (ix2 t e) k)) + b (ix1 e) = _
  refine congrArg (· + b (ix1 e)) (Finset.sum_congr rfl fun k _ => ?_)
  rw [val_main_v0_apply]
  have hl : lidx_main_v1 (ix2 t e) k = ix2 t k := funext fun a => Fin.ext (by match a with | ⟨0, _⟩ => rfl | ⟨1, _⟩ => rfl)
  have hr : idx_main_v0 (ridx_main_v1 (ix2 t e) k) = ix2 e k := funext fun a => Fin.ext (by match a with | ⟨0, _⟩ => rfl | ⟨1, _⟩ => rfl)
  rw [hl, hr]

/-- The row maximum, taken once more against −∞: the largest of token `t`'s logits. -/
theorem top_apply (t : Fin 16384) : val_main_v7 (F := Ideal) x W b (ix1 t) = Gating.top (L x W b t) := by
  rw [val_main_v7_apply, val_main_v6_apply, val_main_cst_0_apply]
  unfold val_main_v5
  refine (congrArg (max _) (RowOps.hostReduce_max_row (val_main_v4 (F := Ideal) x W b) (val_main_cst (F := Ideal))
    reducesTo_S16384x64_S16384_d1 (by decide) h_S_ t)).trans ?_
  rw [val_main_cst_apply]
  have hf : (fun k : Fin 64 => val_main_v4 (F := Ideal) x W b (ix2 t k)) = L x W b t := funext fun k => logit_apply x W b t k
  rw [hf]
  exact RowOps.max_fold_max_self _ _ _

/-- The exponential of the shifted logit. -/
theorem weight_apply (t : Fin 16384) (e : Fin 64) :
    val_main_v11 (F := Ideal) x W b (ix2 t e) = Gating.weight (L x W b t) e := by
  rw [val_main_v11_apply, val_main_v10_apply, val_main_v9_apply, val_main_v8_apply, logit_apply]
  have ht : idx_main_v8 (idx_main_v9 (ix2 t e)) = ix1 t := funext fun a => Fin.ext (by match a with | ⟨0, _⟩ => rfl)
  rw [ht, top_apply]
  rfl

/-- The sum of a token's weights, from the zero word. -/
theorem total_apply (t : Fin 16384) :
    val_main_v12 (F := Ideal) x W b (ix1 t) = ∑ e' : Fin 64, Gating.weight (L x W b t) e' := by
  rw [val_main_v12_apply, val_main_cst_1_apply]
  show Ideal.ofBits .f32 0x00000000#32 + _ = _
  rw [Ideal.ofBits_zero_f32, zero_add]
  refine Finset.sum_congr rfl fun k _ => ?_
  have hk : idx_main_v12 (ix1 t) k = ix2 t k := funext fun a => Fin.ext (by match a with | ⟨0, _⟩ => rfl | ⟨1, _⟩ => rfl)
  rw [hk, weight_apply]

/-- The reference's last stage is the coefficient array. -/
theorem result_eq : val_main_v15 (F := Ideal) x W b = Gating.coef x W b := by
  funext i
  obtain ⟨t, e, rfl⟩ : ∃ (t : Fin 16384) (e : Fin 64), i = ix2 t e := ⟨i 0, i 1, eq_ix2 i⟩
  rw [val_main_v15_apply, val_main_v14_apply, val_main_v13_apply, weight_apply]
  have ht : idx_main_v13 (idx_main_v14 (ix2 t e)) = ix1 t := funext fun a => Fin.ext (by match a with | ⟨0, _⟩ => rfl)
  rw [ht, total_apply]
  rfl

end Cert.ReferenceIdeal.RefValue

end
-- ==== Proof.LibColOps.lean ====
/-
  Columns of a matrix, read at an index given by coordinates.

  A kernel that keeps a batch along the LANES of an [a, b] tile (a transposed tile: feature e on the sublanes,
  sample q on the lanes) normalises each COLUMN: it reduces over axis 0, so entry q of the [b] result looks at the a
  entries (0, q) … (a − 1, q) of its operand. This file reads those reductions at `ix1 q`:
  • a sum over axis 0 is the sum of the column's a entries;
  • a maximum over axis 0 is `max` folded from the accumulator's value over the column's a entries.
  The views and broadcasts that go with them (a vector [b] seen as the row [1, b], a row broadcast over a rows, a
  matrix transposed) are in the library's coordinate layout lemmas; the one missing there, a column [a, 1] read out
  of a transposed row [1, a], is the last lemma here.
-/
import Idealize.ShloMosaic.Lib.ValueLayout
import Idealize.ShloMosaic.Lib.ValueIdx
import Idealize.ShloMosaic.PureOps.Ideal.Laws

noncomputable section

namespace ColOps

open Idealize.ShloMosaic Idealize.ShloMosaic.ValueIdx

variable {α : Type}

/-! ## A reduction down the columns -/

/-- Over result index `q` of a reduction of `[a, b]` along axis 0, the source index with `k` inserted is `(k, q)`. -/
theorem lift_col {a b : ℕ} (h : (⟨2, ![a, b]⟩ : Shape).Reduces [0] ⟨1, ![b]⟩) (q : Fin b) (k : Fin a) :
    h.lift (ix1 q) k = ix2 k q :=
  funext fun c => Fin.ext (by match c with | ⟨0, _⟩ => rfl | ⟨1, _⟩ => rfl)

variable {φ : FTy}

/-- The sum down a column, at the ideal values: entry `q` is the sum of the column's `a` entries. -/
theorem multiReduction_add_col {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ v acc h hφ hacc (ix1 q) = ∑ k : Fin a, v (ix2 k q) := by
  rw [Ideal.multiReduction_add_single]
  exact Finset.sum_congr rfl fun k _ => congrArg v (lift_col h q k)

/-- The maximum down a column, at the ideal values: entry `q` is `max` folded from the accumulator's value over
    the column's `a` entries. -/
theorem multiReduction_max_col {a b : ℕ} (v : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (q : Fin b) :
    multiReduction .maximumf [0] ⟨1, ![b]⟩ v acc h hφ hacc (ix1 q)
      = (Finset.univ : Finset (Fin a)).fold max (Ideal.ofBits φ acc) (fun k => v (ix2 k q)) := by
  rw [Ideal.multiReduction_maximumf_single]
  exact congrArg (Finset.univ.fold max _) (funext fun k => congrArg v (lift_col h q k))

/-! ## A row turned into a column -/

/-- A row `[1, a]` transposed to the column `[a, 1]` reads, at `(i, u)`, the row's entry `i`, whatever the unit
    coordinate `u`. -/
theorem transpose_1a_a1_apply {a : ℕ} (x : (⟨2, ![1, a]⟩ : Shape).Idx → α)
    (h : (⟨2, ![1, a]⟩ : Shape).Transposes [1, 0] ⟨2, ![a, 1]⟩) (i : Fin a) (u : Fin 1) :
    transpose ⟨2, ![a, 1]⟩ [1, 0] x h (ix2 i u) = x (ix2 (0 : Fin 1) i) := by
  have hu : u = 0 := Fin.ext (by omega)
  subst hu
  exact transpose_ix2_apply x h i (0 : Fin 1)

end ColOps

end
-- ==== Proof.KernelBlock.lean ====
/-
  What the kernel body stores, read at an index.

  At a grid point the body holds the whole weight matrix W (64 × 4096), a block of 1024 tokens' feature rows
  xb (1024 × 4096) and the bias as a row b2 (1 × 64), and stores a tile (64 × 1024): expert e on the rows, the block's
  token q on the columns. Read at (e, q):
  • the product tile contracts the feature axis of both operands, Σ_k W (e, k) · xb (q, k): the factors in the other
    order from the specification's logit, which commutativity of the product mends;
  • the bias row turned into a column and broadcast along the tokens adds b2 (0, e);
  • the maximum and the sum run down the columns (over the experts), are kept as a row and broadcast back over
    the 64 rows.
  So the stored tile at (e, q) is the softmax of token q's logits at e.
-/
import proofs.«114894_g34153579938012_cont_8to1_b_1539_13_alg».proof.Proof.Gen.KernelIdeal.Skeleton
import proofs.«114894_g34153579938012_cont_8to1_b_1539_13_alg».proof.Proof.Softmax
import proofs.«114894_g34153579938012_cont_8to1_b_1539_13_alg».proof.Proof.LibRowOps
import proofs.«114894_g34153579938012_cont_8to1_b_1539_13_alg».proof.Proof.LibColOps
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-! ## The contraction's operand indices -/

theorem lhs_tile_0 (i : S64x1024.Idx) (q : dot_S64x4096_S1024x4096_S64x1024_1_1_0_0_n_n.contr.Idx) :
    (dot_S64x4096_S1024x4096_S64x1024_1_1_0_0_n_n.lhsIdx i q 0).val = (i 0).val := by
  unfold DotDims.lhsIdx
  rw [dif_neg (show ¬(0 : Fin S64x4096.rank) ∈ dot_S64x4096_S1024x4096_S64x1024_1_1_0_0_n_n.lhsBatch by decide), dif_pos (show (0 : Fin S64x4096.rank) ∈ dot_S64x4096_S1024x4096_S64x1024_1_1_0_0_n_n.lhsNonContracting by decide)]
  rfl
theorem lhs_tile_1 (i : S64x1024.Idx) (q : dot_S64x4096_S1024x4096_S64x1024_1_1_0_0_n_n.contr.Idx) :
    (dot_S64x4096_S1024x4096_S64x1024_1_1_0_0_n_n.lhsIdx i q 1).val = (q ⟨0, by decide⟩).val :=
  dot_S64x4096_S1024x4096_S64x1024_1_1_0_0_n_n.lhsIdx_val_of_single rfl i q
theorem rhs_tile_0 (i : S64x1024.Idx) (q : dot_S64x4096_S1024x4096_S64x1024_1_1_0_0_n_n.contr.Idx) :
    (dot_S64x4096_S1024x4096_S64x1024_1_1_0_0_n_n.rhsIdx i q 0).val = (i 1).val := by
  unfold DotDims.rhsIdx
  rw [dif_neg (show ¬(0 : Fin S1024x4096.rank) ∈ dot_S64x4096_S1024x4096_S64x1024_1_1_0_0_n_n.rhsBatch by decide), dif_pos (show (0 : Fin S1024x4096.rank) ∈ dot_S64x4096_S1024x4096_S64x1024_1_1_0_0_n_n.rhsNonContracting by decide)]
  rfl
theorem rhs_tile_1 (i : S64x1024.Idx) (q : dot_S64x4096_S1024x4096_S64x1024_1_1_0_0_n_n.contr.Idx) :
    (dot_S64x4096_S1024x4096_S64x1024_1_1_0_0_n_n.rhsIdx i q 1).val = (q ⟨0, by decide⟩).val :=
  dot_S64x4096_S1024x4096_S64x1024_1_1_0_0_n_n.rhsIdx_val_of_single rfl i q

variable (W : FVec Ideal S64x4096 .f32) (xb : FVec Ideal S1024x4096 .f32) (b2 : FVec Ideal S1x64 .f32)

/-- The product tile at (e, q): the weights' row e against the block's token q, over the 4096 features. -/
theorem product_apply (e : Fin 64) (q : Fin 1024) :
    matmul dot_S64x4096_S1024x4096_S64x1024_1_1_0_0_n_n none W xb (constant (F := Ideal) S64x1024 .f32 0x00000000#32) (ix2 e q)
      = ∑ k : Fin 4096, W (ix2 e k) * xb (ix2 q k) := by
  simp only [matmul]
  rw [Ideal.matmul_constant_zero_apply, ← Equiv.sum_comp (ValueIdx.contrEquiv1 dot_S64x4096_S1024x4096_S64x1024_1_1_0_0_n_n 4096 rfl rfl).symm]
  refine Finset.sum_congr rfl fun k _ => ?_
  have hk := ValueIdx.contrEquiv1_symm_val dot_S64x4096_S1024x4096_S64x1024_1_1_0_0_n_n 4096 rfl rfl k
  have el : dot_S64x4096_S1024x4096_S64x1024_1_1_0_0_n_n.lhsIdx (ix2 e q) ((ValueIdx.contrEquiv1 dot_S64x4096_S1024x4096_S64x1024_1_1_0_0_n_n 4096 rfl rfl).symm k) = ix2 e k := funext fun a => Fin.ext (by
    match a with
    | ⟨0, _⟩ => exact lhs_tile_0 _ _
    | ⟨1, _⟩ => exact (lhs_tile_1 _ _).trans hk)
  have er : dot_S64x4096_S1024x4096_S64x1024_1_1_0_0_n_n.rhsIdx (ix2 e q) ((ValueIdx.contrEquiv1 dot_S64x4096_S1024x4096_S64x1024_1_1_0_0_n_n 4096 rfl rfl).symm k) = ix2 q k := funext fun a => Fin.ext (by
    match a with
    | ⟨0, _⟩ => exact rhs_tile_0 _ _
    | ⟨1, _⟩ => exact (rhs_tile_1 _ _).trans hk)
  rw [el, er]

/-! ## The tile's stages, named -/

/-- The block's token `q`'s logits, as the specification names them. -/
abbrev L (q : Fin 1024) : Fin 64 → EReal := Gating.logits (fun k => xb (ix2 q k)) W (fun e' => b2 (ix2 (0 : Fin 1) e'))

/-- The tile of logits: the product plus the bias column broadcast along the tokens. -/
def logitTile : FVec Ideal S64x1024 .f32 :=
  addf (matmul dot_S64x4096_S1024x4096_S64x1024_1_1_0_0_n_n none W xb (constant (F := Ideal) S64x1024 .f32 0x00000000#32))
    (broadcastTo S64x1024 (transpose S64x1 [1, 0] (shapeCast S1x64 b2 shapeCasts_S1x64_S1x64) transposes_S1x64_p1_0_S64x1) broadcasts_S64x1_S64x1024)

theorem logitTile_apply (e : Fin 64) (q : Fin 1024) : logitTile W xb b2 (ix2 e q) = L W xb b2 q e := by
  unfold logitTile
  rw [addf_apply, product_apply, RowOps.broadcastTo_a1_ab_apply, ColOps.transpose_1a_a1_apply, shapeCast_self]
  show _ = (∑ k : Fin 4096, xb (ix2 q k) * W (ix2 e k)) + b2 (ix2 (0 : Fin 1) e)
  refine congrArg (· + b2 (ix2 (0 : Fin 1) e)) (Finset.sum_congr rfl fun k _ => mul_comm _ _)

/-- The row of column maxima. -/
def topRow : FVec Ideal S1024 .f32 :=
  multiReduction .maximumf [0] S1024 (logitTile W xb b2) 0xFF800000#32 reduces_S64x1024_S1024 (.inl rfl) rfl

theorem topRow_apply (q : Fin 1024) : topRow W xb b2 (ix1 q) = Gating.top (L W xb b2 q) := by
  unfold topRow
  refine (ColOps.multiReduction_max_col (logitTile W xb b2) 0xFF800000#32 reduces_S64x1024_S1024 (.inl rfl) rfl q).trans ?_
  exact congrArg (Finset.univ.fold max _) (funext fun e => logitTile_apply W xb b2 e q)

/-- The tile of shifted exponentials. -/
def weightTile : FVec Ideal S64x1024 .f32 :=
  exp (subf (logitTile W xb b2)
    (broadcastTo S64x1024 (shapeCast S1x1024 (topRow W xb b2) shapeCasts_S1024_S1x1024) broadcasts_S1x1024_S64x1024))

theorem weightTile_apply (e : Fin 64) (q : Fin 1024) : weightTile W xb b2 (ix2 e q) = Gating.weight (L W xb b2 q) e := by
  unfold weightTile
  show Ideal.exp (logitTile W xb b2 (ix2 e q) - broadcastTo S64x1024 (shapeCast S1x1024 (topRow W xb b2) shapeCasts_S1024_S1x1024) broadcasts_S1x1024_S64x1024 (ix2 e q)) = _
  rw [broadcastTo_1b_ab_apply, shapeCast_a_1a_apply, logitTile_apply, topRow_apply]
  rfl

/-- The row of column sums. -/
def totalRow : FVec Ideal S1024 .f32 :=
  multiReduction .add [0] S1024 (weightTile W xb b2) 0x00000000#32 reduces_S64x1024_S1024 (.inl rfl) rfl

theorem totalRow_apply (q : Fin 1024) : totalRow W xb b2 (ix1 q) = ∑ e' : Fin 64, Gating.weight (L W xb b2 q) e' := by
  unfold totalRow
  refine (ColOps.multiReduction_add_col (weightTile W xb b2) 0x00000000#32 reduces_S64x1024_S1024 (.inl rfl) rfl q).trans ?_
  exact Finset.sum_congr rfl fun e _ => weightTile_apply W xb b2 e q

/-- The body's stored value is the quotient of those stages. -/
theorem payload_eq : k0_pay1 (F := Ideal) W xb b2
    = divf (weightTile W xb b2)
        (broadcastTo S64x1024 (shapeCast S1x1024 (totalRow W xb b2) shapeCasts_S1024_S1x1024) broadcasts_S1x1024_S64x1024) := rfl

/-- The stored tile at (e, q) is the softmax of the block's token q at expert e. -/
theorem payload_apply (e : Fin 64) (q : Fin 1024) :
    k0_pay1 (F := Ideal) W xb b2 (ix2 e q) = Gating.softmax (L W xb b2 q) e := by
  rw [payload_eq, divf_apply, broadcastTo_1b_ab_apply, shapeCast_a_1a_apply, weightTile_apply, totalRow_apply]
  rfl

end Cert.KernelIdeal.Block

end
-- ==== Proof.KernelValue.lean ====
/-
  The kernel's result array after the run.

  The grid has 16 points. At point t the body sees tokens 1024·t … 1024·t + 1023 as its block of the feature array,
  the whole weight matrix, and the bias as the row the host reshaped it into before the region; it stores a
  64 × 1024 tile that the pipeline writes back as columns 1024·t … 1024·t + 1023 of a 64 × 16384 array. The stored tile
  at (e, q) is the softmax of the block's token q at expert e, which depends on the feature array only through
  row 1024·t + q: so every point writes back its block of ONE array, the coefficient array laid out experts by
  tokens, and the 16 blocks cover that array. After the region the host transposes it, which gives the
  coefficient array laid out tokens by experts.
-/
import proofs.«114894_g34153579938012_cont_8to1_b_1539_13_alg».proof.Proof.Gen.KernelIdeal.Frame
import proofs.«114894_g34153579938012_cont_8to1_b_1539_13_alg».proof.Proof.KernelBlock
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

/-! ## A tile over its block of tokens is a block of the coefficient array -/

/-- If the body's three operands are the weights, rows 1024·n … of the features and the bias as a row, the stored
    tile at (e, q) is the coefficient of token 1024·n + q for expert e. -/
theorem tile_eq (x : FVec Ideal S16384x4096 .f32) (W : FVec Ideal S64x4096 .f32) (b : FVec Ideal S64 .f32)
    (wb : FVec Ideal S64x4096 .f32) (xb : FVec Ideal S1024x4096 .f32) (b2 : FVec Ideal S1x64 .f32) (n : ℕ) (hn : n < 16)
    (hw : ∀ (e : Fin 64) (k : Fin 4096), wb (ix2 e k) = W (ix2 e k))
    (hx : ∀ (q : Fin 1024) (k : Fin 4096), xb (ix2 q k) = x (ix2 (⟨n * 1024 + q.val, by omega⟩ : Fin 16384) k))
    (hb : ∀ e : Fin 64, b2 (ix2 (0 : Fin 1) e) = b (ix1 e))
    (j : S64x1024.Idx) (i : S64x16384.Idx) (h0 : (i 0).val = (j 0).val) (h1 : (i 1).val = n * 1024 + (j 1).val) :
    k0_pay1 (F := Ideal) wb xb b2 j = Gating.coefT x W b i := by
  obtain ⟨e, q, rfl⟩ : ∃ (e : Fin 64) (q : Fin 1024), j = ix2 e q := ⟨j 0, j 1, eq_ix2 j⟩
  have hi : i = ix2 e (⟨n * 1024 + q.val, by omega⟩ : Fin 16384) :=
    funext fun a => Fin.ext (by match a with | ⟨0, _⟩ => exact h0 | ⟨1, _⟩ => exact h1)
  have hwb : wb = W := funext fun y => by
    obtain ⟨e', k, rfl⟩ : ∃ (e' : Fin 64) (k : Fin 4096), y = ix2 e' k := ⟨y 0, y 1, eq_ix2 y⟩
    exact hw e' k
  rw [hi, Block.payload_apply, Gating.coefT_ix2, hwb]
  have hrow : (fun k : Fin 4096 => xb (ix2 q k)) = fun k => x (ix2 (⟨n * 1024 + q.val, by omega⟩ : Fin 16384) k) := funext (hx q)
  have hbias : (fun e' : Fin 64 => b2 (ix2 (0 : Fin 1) e')) = fun e' => b (ix1 e') := funext hb
  show Gating.softmax (Gating.logits (fun k => xb (ix2 q k)) W (fun e' => b2 (ix2 (0 : Fin 1) e'))) e
    = Gating.softmax (Gating.logits (fun k => x (ix2 (⟨n * 1024 + q.val, by omega⟩ : Fin 16384) k)) W (fun e' => b (ix1 e'))) e
  rw [hrow, hbias]

variable (m : (ℓ : Loc nD τ sig) → Buf (Elt Ideal) ℓ) (ρ : Dev nD → PrngReg)

theorem hz : (![0, 0] : Fin 2 → Nat) = fun _ => 0 := funext fun a => by fin_cases a <;> rfl

/-! ## The arguments, as the region finds them -/

/-- The feature array, the weights and the bias on core `c`. -/
abbrev xarr (c : Dev nD) : FVec Ideal S16384x4096 .f32 := m ((c : Thread nD τ).loc main_arg0)
abbrev warr (c : Dev nD) : FVec Ideal S64x4096 .f32 := m ((c : Thread nD τ).loc main_arg1)
abbrev barr (c : Dev nD) : FVec Ideal S64 .f32 := m ((c : Thread nD τ).loc main_arg2)

/-- The bias as the host reshaped it before the region: a row. -/
theorem brow_eq (c : Dev nD) :
    (V m c main_v0 : S1x64.Idx → EReal) = shapeCast S1x64 (barr m c) shapeCasts_S64_S1x64 := by
  show StableHlo.after hostOps0 (fun b => m (c, b)) (Proc.devRef .tc main_v0) = _
  after_results
  rfl

/-- Where each window's block sits at grid point `t`: the features' block is row block t, the result's block is
    column block t, the weights and the bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## The body's three blocks -/

/-- The features' block at point `t` holds rows 1024·t … of the feature array. -/
theorem xblk_apply (c : Dev nD) (t : Fin cfg0.N) (q : Fin 1024) (k : Fin 4096) (hq : t.val * 1024 + q.val < 16384) :
    (iblk m c 0 t : FVec Ideal S1024x4096 .f32) (ix2 q k) = xarr m c (ix2 (⟨t.val * 1024 + q.val, hq⟩ : Fin 16384) k) := by
  obtain ⟨e00, e01, -⟩ := idx_facts t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 1024 + 1 * q.val = t.val * 1024 + q.val; rw [e00]; omega
  | ⟨1, _⟩ => show win0_0.index t 1 * 4096 + 1 * k.val = k.val; rw [e01]; omega

/-- The weights' block at any point is the whole weight matrix. -/
theorem wblk_apply (c : Dev nD) (t : Fin cfg0.N) (e : Fin 64) (k : Fin 4096) :
    (iblk m c 1 t : FVec Ideal S64x4096 .f32) (ix2 e k) = warr m c (ix2 e k) := by
  obtain ⟨-, -, e10, e11, -⟩ := idx_facts t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 64 + 1 * e.val = e.val; rw [e10]; omega
  | ⟨1, _⟩ => show win0_1.index t 1 * 4096 + 1 * k.val = k.val; rw [e11]; omega

/-- The bias block at any point is the reshaped row: at (0, e) the bias of expert e. -/
theorem bblk_apply (c : Dev nD) (t : Fin cfg0.N) (e : Fin 64) :
    (iblk m c 2 t : FVec Ideal S1x64 .f32) (ix2 (0 : Fin 1) e) = barr m c (ix1 e) := by
  obtain ⟨-, -, -, -, e20, e21, -⟩ := idx_facts t
  unfold iblk
  rw [View.read_apply]
  show (V m c main_v0 : S1x64.Idx → EReal) _ = _
  rw [brow_eq]
  refine Eq.trans (congrArg _ ?_) (shapeCast_a_1a_apply (barr m c) shapeCasts_S64_S1x64 (0 : Fin 1) e)
  funext a
  apply Fin.ext
  match a with
  | ⟨0, _⟩ => show win0_2.index t 0 * 1 + 1 * 0 = 0; rw [e20]
  | ⟨1, _⟩ => show win0_2.index t 1 * 64 + 1 * e.val = e.val; rw [e21]; omega

/-! ## What a point writes back, the cover, the array after the run -/

/-- What point `t` writes back is its block of the coefficient array laid out experts by tokens. -/
theorem flushed_eq (c : Dev nD) (t : Fin cfg0.N) :
    (dats m 0 c).flushed 3 t
      = ((cfg0.win 3).blk t).view.read (Elt Ideal) (Gating.coefT (xarr m c) (warr m c) (barr m c)) := by
  show (cfg0.win 3).cut (grid0.coords t) ((dats m 0 c).after 3 t) = _
  rw [after0_3]
  unfold out0_3
  rw [View.canon_unit_zero hz]
  simp only [View.ld_unit_zero (S := S64x4096) hz, View.ld_unit_zero (S := S1024x4096) hz, View.ld_unit_zero (S := S1x64) hz]
  have hN : cfg0.N = 16 := N_0
  have ht : t.val < 16 := by have := t.isLt; omega
  obtain ⟨-, -, -, -, -, -, e30, e31⟩ := idx_facts t
  funext j
  show k0_pay1 (F := Ideal) (iblk m c 1 t) (iblk m c 0 t) (iblk m c 2 t) j
    = Gating.coefT (xarr m c) (warr m c) (barr m c) (((cfg0.win 3).blk t).view.emb j)
  refine tile_eq (xarr m c) (warr m c) (barr m c) (iblk m c 1 t) (iblk m c 0 t) (iblk m c 2 t) t.val ht
    (fun e k => wblk_apply m c t e k) (fun q k => xblk_apply m c t q k _) (fun e => bblk_apply m c t e)
    j (((cfg0.win 3).blk t).view.emb j) ?_ ?_
  · show win0_3.index t 0 * 64 + 1 * (j 0).val = (j 0).val; rw [e30]; omega
  · show win0_3.index t 1 * 1024 + 1 * (j 1).val = t.val * 1024 + (j 1).val; rw [e31]; omega

/-- An index of the result array is in point `t`'s block iff each coordinate is in the block's range on its axis. -/
theorem mem_blk (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v1).slice (win0_3.rect t)).set ↔ _
  rw [View.set_slice_whole, Rect.mem_set_unit]
  exact Iff.rfl

/-- Column j of the result array is written back by the point j / 1024. -/
theorem cover (i : S64x16384.Idx) :
    ∃ t : Fin cfg0.N, (cfg0.win 3).flush t = true ∧ i ∈ ((cfg0.win 3).blk t).view.set := by
  have hN : cfg0.N = 16 := N_0
  have hi0 : (i 0).val < 64 := (i 0).isLt
  have hi1 : (i 1).val < 16384 := (i 1).isLt
  obtain ⟨t, ht⟩ : ∃ t : Fin cfg0.N, t.val = (i 1).val / 1024 := ⟨⟨(i 1).val / 1024, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t 0 * 64 ≤ (i 0).val ∧ (i 0).val < win0_3.index t 0 * 64 + 64; rw [e30]; omega
  | ⟨1, _⟩ => show win0_3.index t 1 * 1024 ≤ (i 1).val ∧ (i 1).val < win0_3.index t 1 * 1024 + 1024; rw [e31, ht]; omega

/-- The region's result array after the run: the coefficient array laid out experts by tokens. -/
theorem final (c : Dev nD) : (dats m 0 c).arrAt 3 cfg0.N = Gating.coefT (xarr m c) (warr m c) (barr m c) :=
  (dats m 0 c).arrAt_eq_of_cover 3 (Gating.coefT (xarr m c) (warr m c) (barr m c)) (fun t _ => flushed_eq m c t) cover

/-! ## The host's transpose after the region, and the run -/

/-- The program's result: the transposed array, which is the coefficient array tokens by experts. -/
theorem result_eq (c : Dev nD) :
    Pipeline.afterTail₀ cfgs (dats m) 0 (V0 m) [hostOps1] c main_v2 = Gating.coef (xarr m c) (warr m c) (barr m c) := by
  unfold Pipeline.afterTail₀
  show StableHlo.after hostOps1 _ (Proc.devRef .tc main_v2) = _
  after_results
  have harr : Pipeline.withArrays (cfgs 0).spec c (V0 m c) (fun w => (dats m 0 c).arrAt w (cfgs 0).N) (Proc.devRef .tc main_v1)
      = Gating.coefT (xarr m c) (warr m c) (barr m c) :=
    (Pipeline.withArrays_arr spec0 launch0.win.arr_inj c _ _ 3).trans (final m c)
  refine (congrArg (fun v : S64x16384.Idx → EReal => transpose S16384x64 [1, 0] v transposes_S64x16384_S16384x64_1_0) harr).trans ?_
  funext i
  obtain ⟨t, e, rfl⟩ : ∃ (t : Fin 16384) (e : Fin 64), i = ix2 t e := ⟨i 0, i 1, eq_ix2 i⟩
  exact transpose_ix2_apply (Gating.coefT (xarr m c) (warr m c) (barr m c)) transposes_S64x16384_S16384x64_1_0 t e

/-- Every weakly fair execution of the kernel's program terminates with the result at the coefficient array of
    the launch arguments, and the arguments unchanged. -/
theorem run : θ_run defs (onTc (τ := τ) (main (F := Ideal))) ⟨m, fun _ => 0, ρ⟩ fun r => ∀ c : Dev nD,
      r.2.mem ((c.tc : Thread nD τ).loc main_v2) = Gating.coef (xarr m c) (warr m c) (barr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/- Mixture-of-experts gating: softmax over 64 experts of x · Wᵀ + b, for 16384 tokens of 4096 features.

   The kernel walks the tokens in 16 blocks of 1024. At each block it contracts the weights against the block's
   feature rows, which gives the logits with the experts on the rows and the block's tokens on the columns, adds the
   bias down the rows, and normalises every column: subtract the column's maximum, exponentiate, divide by the
   column's sum. The tiles are written side by side into a 64 × 16384 array, which the host transposes at the end.
   The reference forms the 16384 × 64 logits in one product, adds the bias along the rows and normalises every row
   the same way.

   Both results are ONE function of the three arguments (Proof/Softmax.lean): at (t, e) the softmax, at e, of token
   t's 64 logits Σ_k x (t, k) · W (e, k) + b e. The two programs differ in the order of the two factors inside the
   contraction (the product on the extended reals is commutative), in the layout (a column of the kernel's tile is
   a row of the reference's matrix), and in that the reference takes its folded maximum once more against the −∞ it
   was folded from, which changes nothing. No step needs the inputs finite, so the precondition is not opened.

   Proof/RefValue.lean reads the reference's stages at an index; Proof/KernelBlock.lean reads the stored tile at an
   index; Proof/KernelValue.lean shows that every grid point writes back its block of the one array, that the blocks
   cover it, and reads the transpose after the region. The frames of the two kernel programs are the generated ones;
   the reference's is its run with the result dropped. The idealization rewrote nothing, so there is nothing to
   preserve. -/
import proofs.«114894_g34153579938012_cont_8to1_b_1539_13_alg».proof.Defs
import proofs.«114894_g34153579938012_cont_8to1_b_1539_13_alg».proof.Proof.Gen.Kernel
import proofs.«114894_g34153579938012_cont_8to1_b_1539_13_alg».proof.Proof.Gen.Kernel.Frame
import proofs.«114894_g34153579938012_cont_8to1_b_1539_13_alg».proof.Proof.Gen.KernelIdeal
import proofs.«114894_g34153579938012_cont_8to1_b_1539_13_alg».proof.Proof.Gen.KernelIdeal.Frame
import proofs.«114894_g34153579938012_cont_8to1_b_1539_13_alg».proof.Proof.Gen.ReferenceIdeal
import proofs.«114894_g34153579938012_cont_8to1_b_1539_13_alg».proof.Proof.Gen.ReferenceIdeal.Run
import proofs.«114894_g34153579938012_cont_8to1_b_1539_13_alg».proof.Proof.Gen.ReferenceIdeal.Read
import proofs.«114894_g34153579938012_cont_8to1_b_1539_13_alg».proof.Proof.Gen.Pre_finite_inputs
import proofs.«114894_g34153579938012_cont_8to1_b_1539_13_alg».proof.Proof.Softmax
import proofs.«114894_g34153579938012_cont_8to1_b_1539_13_alg».proof.Proof.RefValue
import proofs.«114894_g34153579938012_cont_8to1_b_1539_13_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, read back, with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the coefficient array of those
    arguments: the kernel's transposed array of column softmaxes, and the reference's last stage. -/
theorem algebraic : Cert.algebraic_KernelIdeal_ReferenceIdeal := by
  intro m ρ m' ρ' _ hagree
  refine ⟨fun c => Gating.coef (Cert.KernelIdeal.KValue.xarr m c) (Cert.KernelIdeal.KValue.warr m c) (Cert.KernelIdeal.KValue.barr m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
